-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S1024x32 : Shape := ⟨2, ![1024, 32]⟩
abbrev S100000x256 : Shape := ⟨2, ![100000, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_

variable [Facts]

def fn {F : FTy → Type} [FloatOps F] (main_arg0 : FVec F S1024x256 .f32) (main_arg1 : IVec S1024 32) (main_arg2 : IVec S1024x32 32) (main_arg3 : FVec F S100000x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S100000x256 .f32 := Host.absf main_arg3
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S1024x256 : Shape := ⟨2, ![1024, 256]⟩
abbrev S1024 : Shape := ⟨1, ![1024]⟩
abbrev S1024x32 : Shape := ⟨2, ![1024, 32]⟩
abbrev S100000x256 : Shape := ⟨2, ![100000, 256]⟩
abbrev S_ : Shape := ⟨0, ![]⟩
abbrev S1024x1 : Shape := ⟨2, ![1024, 1]⟩
abbrev S32768 : Shape := ⟨1, ![32768]⟩
abbrev S32768x1 : Shape := ⟨2, ![32768, 1]⟩
abbrev S32768x256 : Shape := ⟨2, ![32768, 256]⟩
abbrev S64x256 : Shape := ⟨2, ![64, 256]⟩
abbrev S2048x256 : Shape := ⟨2, ![2048, 256]⟩
abbrev S256x64 : Shape := ⟨2, ![256, 64]⟩
abbrev S1024x64 : Shape := ⟨2, ![1024, 64]⟩
abbrev S256x2048 : Shape := ⟨2, ![256, 2048]⟩
abbrev S1024x2048 : Shape := ⟨2, ![1024, 2048]⟩
abbrev S1024x64x32 : Shape := ⟨3, ![1024, 64, 32]⟩

abbrev nBuf : Space → Nat
  | .hbm => 25
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S1024x32, .i32⟩
  | .hbm, ⟨3, _⟩ => ⟨S100000x256, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x256, .f32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768x256, .f32⟩
  | .hbm, ⟨23, _⟩ => ⟨S1024x1, .f32⟩
  | .hbm, ⟨24, _⟩ => ⟨S1024, .f32⟩
  | .local _ .vmem, ⟨0, _⟩ => ⟨S1024x256, .f32⟩
  | .local _ .vmem, ⟨1, _⟩ => ⟨S64x256, .f32⟩
  | .local _ .vmem, ⟨2, _⟩ => ⟨S64x256, .f32⟩
  | .local _ .vmem, ⟨3, _⟩ => ⟨S2048x256, .f32⟩
  | .local _ .vmem, ⟨4, _⟩ => ⟨S2048x256, .f32⟩
  | .local _ .vmem, ⟨5, _⟩ => ⟨S1024x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  shapeCasts_S1024x32_S32768 : S1024x32.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S64x256_p1_0_S256x64 : S64x256.Transposes [1, 0] S256x64
  transposes_S2048x256_p1_0_S256x2048 : S2048x256.Transposes [1, 0] S256x2048
  shapeCasts_S1024x2048_S1024x64x32 : S1024x2048.ShapeCasts S1024x64x32
  reduces_S1024x64x32_S1024x64 : S1024x64x32.Reduces [2] S1024x64
  reduces_S1024x64_S1024 : S1024x64.Reduces [1] S1024
  shapeCasts_S1024_S1024x1 : S1024.ShapeCasts S1024x1
  shapeCasts_S1024x1_S1024x1 : S1024x1.ShapeCasts S1024x1
  shapeCasts_S1024x1_S1024 : S1024x1.ShapeCasts S1024
  gather_S100000x256_S1024x1_S1024x256_1_0_n_n_0_1_1256_wf : GatherDims.WF S100000x256 S1024x1 S1024x256 [1] [0] [] [0] [] 1 ![1, 256]
  gather_S100000x256_S32768x1_S32768x256_1_0_n_n_0_1_1256_wf : GatherDims.WF S100000x256 S32768x1 S32768x256 [1] [0] [] [0] [] 1 ![1, 256]
  dot_S1024x256_S256x64_S1024x64_1_0_0_1_n_n_wf : DotDims.WF S1024x256 S256x64 S1024x64 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S1024x256.size a
  hwx0_1 : ∀ i : grid0.Coords, EltTy.bits .f32 = 32 ∨ (Rect.block (s := S1024x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)

variable [Facts₀]

def gather_S100000x256_S1024x1_S1024x256_1_0_n_n_0_1_1256 : GatherDims S100000x256 S1024x1 S1024x256 where
  offsetDims := [1]
  collapsedSliceDims := [0]
  operandBatchingDims := []
  startIndicesBatchingDims := []
  startIndexMap := [0]
  indexVectorDim := 1
  sliceSizes := ![1, 256]
  wf := gather_S100000x256_S1024x1_S1024x256_1_0_n_n_0_1_1256_wf
def gather_S100000x256_S32768x1_S32768x256_1_0_n_n_0_1_1256 : GatherDims S100000x256 S32768x1 S32768x256 where
  offsetDims := [1]
  collapsedSliceDims := [0]
  operandBatchingDims := []
  startIndicesBatchingDims := []
  startIndexMap := [0]
  indexVectorDim := 1
  sliceSizes := ![1, 256]
  wf := gather_S100000x256_S32768x1_S32768x256_1_0_n_n_0_1_1256_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024 : Shape := ⟨1, ![1024]⟩
abbrev S1024x32 : Shape := ⟨2, ![1024, 32]⟩
abbrev S100000x256 : Shape := ⟨2, ![100000, 256]⟩
abbrev S_ : Shape := ⟨0, ![]⟩
abbrev S1024x1 : Shape := ⟨2, ![1024, 1]⟩
abbrev S256x1024 : Shape := ⟨2, ![256, 1024]⟩
abbrev S1024x1024 : Shape := ⟨2, ![1024, 1024]⟩
abbrev S32768 : Shape := ⟨1, ![32768]⟩
abbrev S32768x1 : Shape := ⟨2, ![32768, 1]⟩
abbrev S32768x256 : Shape := ⟨2, ![32768, 256]⟩
abbrev S256x32768 : Shape := ⟨2, ![256, 32768]⟩
abbrev S1024x32768 : Shape := ⟨2, ![1024, 32768]⟩
abbrev S1024x1024x32 : Shape := ⟨3, ![1024, 1024, 32]⟩

abbrev nBuf : Space → Nat
  | .hbm => 35
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S1024x32, .i32⟩
  | .hbm, ⟨3, _⟩ => ⟨S100000x256, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x256, .f32⟩
  | .hbm, ⟨13, _⟩ => ⟨S256x1024, .f32⟩
  | .hbm, ⟨14, _⟩ => ⟨S1024x1024, .f32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S32768, .i32⟩
  | .hbm, ⟨23, _⟩ => ⟨S32768x1, .i32⟩
  | .hbm, ⟨24, _⟩ => ⟨S32768x256, .f32⟩
  | .hbm, ⟨25, _⟩ => ⟨S256x32768, .f32⟩
  | .hbm, ⟨26, _⟩ => ⟨S1024x32768, .f32⟩
  | .hbm, ⟨27, _⟩ => ⟨S1024x1024x32, .f32⟩
  | .hbm, ⟨28, _⟩ => ⟨S1024x1024x32, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S1024x256_S256x1024_1_0 : S1024x256.Transposes [1, 0] S256x1024
  shapeCasts_S1024x32_S32768 : S1024x32.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  transposes_S32768x256_S256x32768_1_0 : S32768x256.Transposes [1, 0] S256x32768
  shapeCasts_S1024x32768_S1024x1024x32 : S1024x32768.ShapeCasts S1024x1024x32
  reducesTo_S1024x1024x32_S1024x1024_d2 : S1024x1024x32.ReducesTo [2] S1024x1024
  h_S_ : 0 < S_.numel
  reducesTo_S1024x1024_S1024_d1 : S1024x1024.ReducesTo [1] S1024
  gather_S100000x256_S1024x1_S1024x256_1_0_n_n_0_1_1256_wf : GatherDims.WF S100000x256 S1024x1 S1024x256 [1] [0] [] [0] [] 1 ![1, 256]
  dot_S1024x256_S256x1024_S1024x1024_1_0_0_1_n_n_wf : DotDims.WF S1024x256 S256x1024 S1024x1024 [1] [0] [0] [1] [] []
  gather_S100000x256_S32768x1_S32768x256_1_0_n_n_0_1_1256_wf : GatherDims.WF S100000x256 S32768x1 S32768x256 [1] [0] [] [0] [] 1 ![1, 256]
  dot_S1024x256_S256x32768_S1024x32768_1_0_0_1_n_n_wf : DotDims.WF S1024x256 S256x32768 S1024x32768 [1] [0] [0] [1] [] []

variable [Facts₀]

def gather_S100000x256_S1024x1_S1024x256_1_0_n_n_0_1_1256 : GatherDims S100000x256 S1024x1 S1024x256 where
  offsetDims := [1]
  collapsedSliceDims := [0]
  operandBatchingDims := []
  startIndicesBatchingDims := []
  startIndexMap := [0]
  indexVectorDim := 1
  sliceSizes := ![1, 256]
  wf := gather_S100000x256_S1024x1_S1024x256_1_0_n_n_0_1_1256_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def gather_S100000x256_S32768x1_S32768x256_1_0_n_n_0_1_1256 : GatherDims S100000x256 S32768x1 S32768x256 where
  offsetDims := [1]
  collapsedSliceDims := [0]
  operandBatchingDims := []
  startIndicesBatchingDims := []
  startIndexMap := [0]
  indexVectorDim := 1
  sliceSizes := ![1, 256]
  wf := gather_S100000x256_S32768x1_S32768x256_1_0_n_n_0_1_1256_wf
def dot_S1024x256_S256x32768_S1024x32768_1_0_0_1_n_n : DotDims S1024x256 S256x32768 S1024x32768 where
  lhsContracting := [1]
  rhsContracting := [0]
  lhsNonContracting := [0]
  rhsNonContracting := [1]
  lhsBatch := []
  rhsBatch := []
  wf := dot_S1024x256_S256x32768_S1024x32768_1_0_0_1_n_n_wf

class Facts : Prop extends Facts₀ where

variable [Facts]
-- ==== Proof.Pieces.lean ====
/-
  What one run of the kernel body leaves in the output block, in each of its two control cases.

  At the first grid point the body first stores the zero block over the whole output block, reads it back, and
  stores `0 + (this point's contribution)`; at every later point it reads the block as the point before left it and
  stores `previous + contribution`. In both cases the last store covers the whole [1024, 1] block, so what the block
  holds afterwards is that store's value, a function of the three input blocks (and, later, of the previous contents).
-/
import proofs.«126265_j52596169507059_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

/-- A later grid point: the block ends at the payload of the input blocks and of what the point before left. -/
theorem later_point (c : Dev nD) (i : grid0.Coords) (a1 : Memref sig .tc .vmem S1024x256 .f32) (h1 : a1.IsWhole)
    (a2 : Memref sig .tc .vmem S64x256 .f32) (h2 : a2.IsWhole) (a3 : Memref sig .tc .vmem S2048x256 .f32) (h3 : a3.IsWhole)
    (a4 : Memref sig .tc .vmem S1024x1 .f32) (h4 : a4.IsWhole) (hc : ¬cond0_0 i)
    (x : Vec F S1024x256 .f32) (tw : Vec F S64x256 .f32) (sw : Vec F S2048x256 .f32) (prev : Vec F S1024x1 .f32) :
    out0_B_3 c i a1 h1 a2 h2 a3 h3 a4 h4 hc x tw sw prev = k0_pay2 x tw sw prev := by
  unfold out0_B_3
  rw [View.read_writes_eq_canon _ _ _ (cover0_B_3 c i a1 h1 a2 h2 a3 h3 a4 h4 hc x tw sw prev)]
  unfold kernelRun0_B
  dsimp only
  sl_unfold_words
  rw [View.canon_unit_zero origin]
  simp only [View.readAt_eq_ld, h1.read_unread, h2.read_unread, h3.read_unread, h4.read_unread,
    View.ld_unit_zero (S := S1024x256) origin, View.ld_unit_zero (S := S64x256) origin,
    View.ld_unit_zero (S := S2048x256) origin, View.ld_unit_zero (S := S1024x1) origin]

/-- The first grid point: the block ends at the payload of the input blocks over the zero block. -/
theorem first_point (c : Dev nD) (i : grid0.Coords) (a1 : Memref sig .tc .vmem S1024x256 .f32) (h1 : a1.IsWhole)
    (a2 : Memref sig .tc .vmem S64x256 .f32) (h2 : a2.IsWhole) (a3 : Memref sig .tc .vmem S2048x256 .f32) (h3 : a3.IsWhole)
    (a4 : Memref sig .tc .vmem S1024x1 .f32) (h4 : a4.IsWhole) (hc : cond0_0 i)
    (x : Vec F S1024x256 .f32) (tw : Vec F S64x256 .f32) (sw : Vec F S2048x256 .f32) :
    out0_A_3 c i a1 h1 a2 h2 a3 h3 a4 h4 hc x tw sw = k0_pay2 x tw sw (k0_pay1 (F := F)) := by
  unfold out0_A_3
  rw [View.read_writes_eq_canon _ _ _ (cover0_A_3 c i a1 h1 a2 h2 a3 h3 a4 h4 hc x tw sw)]
  unfold kernelRun0_A
  dsimp only
  sl_unfold_words
  rw [View.canon_cons_unit_zero (S := S1024x1) origin, View.readCov_unit_zero (S := S1024x1) _ origin]
  simp only [View.readAt_eq_ld, h1.read_unread, h2.read_unread, h3.read_unread,
    View.ld_unit_zero (S := S1024x256) origin, View.ld_unit_zero (S := S64x256) origin,
    View.ld_unit_zero (S := S2048x256) origin, View.ld_unit_zero (S := S1024x1) origin]

end Cert.KernelIdeal.Pieces

end
-- ==== Proof.SumBlocks.lean ====
/-
  Regrouping a finite sum: a sum over `a * b` positions taken block by block.
  In any additive commutative monoid, summing `f` over the `a * b` positions is the same as summing,
  over the `a` blocks, the sum of `f` over the `b` positions `b * t + i` of block `t`. Only commutativity
  and associativity of the addition are used, so the law holds on the extended reals with no finiteness.
-/
import Mathlib.Data.Fintype.BigOperators
import Mathlib.Logic.Equiv.Fin.Basic

namespace Cert.SumBlocks

/-- Position `i` of block `t`, among `a` blocks of `b` positions each: `b * t + i`. -/
def pos (a b : Nat) (t : Fin a) (i : Fin b) : Fin (a * b) :=
  ⟨b * t.val + i.val, by
    have ht : t.val + 1 ≤ a := t.isLt
    have hi := i.isLt
    calc b * t.val + i.val < b * t.val + b := Nat.add_lt_add_left hi _
      _ = b * (t.val + 1) := (Nat.mul_succ b t.val).symm
      _ ≤ b * a := Nat.mul_le_mul_left b ht
      _ = a * b := Nat.mul_comm b a⟩

theorem pos_val (a b : Nat) (t : Fin a) (i : Fin b) : (pos a b t i).val = b * t.val + i.val := rfl

/-- The sum over all positions is the sum over the blocks of each block's sum. -/
theorem sum_blocks {M : Type*} [AddCommMonoid M] (a b : Nat) (f : Fin (a * b) → M) :
    ∑ I, f I = ∑ t : Fin a, ∑ i : Fin b, f (pos a b t i) := by
  rw [← (finProdFinEquiv (m := a) (n := b)).sum_comp, Fintype.sum_prod_type]
  refine Finset.sum_congr rfl fun t _ => Finset.sum_congr rfl fun i _ => congrArg f (Fin.ext ?_)
  show i.val + b * t.val = b * t.val + i.val
  exact Nat.add_comm _ _

end Cert.SumBlocks
-- ==== Proof.Loss.lean ====
/-
  The sampled-softmax loss as ONE function of three arrays, over the extended reals.

  For a batch row `b` and a label position `I`, with `x_b` row `b` of the activations, `tw_I` row `I` of the gathered
  true-label weights and `sw_(32 I + j)`, `j < 32`, the rows of the gathered sampled weights that belong to `I`:

      term b I = log (∑ j, exp (x_b · sw_(32 I + j))) - x_b · tw_I,        loss b = ∑ I, term b I.

  The reference takes the sum over all 1024 positions at once; the kernel takes it in 16 blocks of 64 positions,
  position `i` of block `t` being `I = 64 t + i`, whose sampled rows `32 (64 t + i) + j` are rows `32 i + j` of block
  `t` of 2048 sampled rows. `loss_blocks` says the two groupings agree; it needs nothing of the entries (the extended
  reals are a commutative monoid under addition), so no finiteness hypothesis is ever opened.
-/
import Idealize.ShloMosaic.PureOps.Ideal
import Idealize.ShloMosaic.Lib.ValueIdx
import proofs.«126265_j52596169507059_1_alg».proof.Proof.SumBlocks

noncomputable section

namespace Cert.Loss

open Idealize.ShloMosaic Idealize.ShloMosaic.ValueIdx

/-- One row against one label: the log of the summed exponentials of the 32 sampled scores, less the true score. -/
def logit (x tw : Fin 256 → EReal) (sw : Fin 32 → Fin 256 → EReal) : EReal :=
  Ideal.log (∑ j : Fin 32, Ideal.exp (∑ k : Fin 256, x k * sw j k)) - ∑ k : Fin 256, x k * tw k

/-- The sampled row `32 I + j` that belongs to label position `I`. -/
def srow (I : Fin 1024) (j : Fin 32) : Fin 32768 :=
  ⟨32 * I.val + j.val, by have := I.isLt; have := j.isLt; omega⟩

/-- Label position `64 t + i`: position `i` of block `t`. -/
def lpos (t : Fin 16) (i : Fin 64) : Fin 1024 :=
  ⟨64 * t.val + i.val, by have := t.isLt; have := i.isLt; omega⟩

/-- Row `32 i + j` of a block of 2048 sampled rows. -/
def brow (i : Fin 64) (j : Fin 32) : Fin 2048 :=
  ⟨32 * i.val + j.val, by have := i.isLt; have := j.isLt; omega⟩

variable (X TW : (⟨2, ![1024, 256]⟩ : Shape).Idx → EReal) (SW : (⟨2, ![32768, 256]⟩ : Shape).Idx → EReal)

/-- Row `b` against label position `I`. -/
def term (b I : Fin 1024) : EReal :=
  logit (fun k => X (ix2 b k)) (fun k => TW (ix2 I k)) (fun j k => SW (ix2 (srow I j) k))

/-- The loss of row `b`: the sum over all label positions. -/
def loss (b : Fin 1024) : EReal := ∑ I : Fin 1024, term X TW SW b I

/-- The part of the loss of row `b` that block `t` of 64 label positions contributes. -/
def part (b : Fin 1024) (t : Fin 16) : EReal := ∑ i : Fin 64, term X TW SW b (lpos t i)

/-- The loss is the sum of the 16 blocks' parts. -/
theorem loss_blocks (b : Fin 1024) : loss X TW SW b = ∑ t : Fin 16, part X TW SW b t := by
  unfold loss part
  exact Cert.SumBlocks.sum_blocks 16 64 (fun I : Fin (16 * 64) => term X TW SW b I)

end Cert.Loss

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.LibLaneSum3.lean ====
/-
  A float lane sum over the LAST axis of a rank-3 array, read at one entry of the result, generic in the extents.

  On the extended reals a `vector.multi_reduction <add>` over axis 2 of an [a, b, c] array is, at entry (p, q) of the
  [a, b] result, the sum over k < c of the source at (p, q, k). This is the library's one-axis reading
  (`Ideal.multiReduction_add_single`) with both indices written by coordinates, so that the summation variable has the
  literal type `Fin c` and the source index is `ix3 p q k`.
-/
import Idealize.ShloMosaic.Lib.ValueIdx
import Idealize.ShloMosaic.PureOps.Ideal.Laws

namespace Cert.Lib.LaneSum3

open Idealize.ShloMosaic Idealize.ShloMosaic.ValueIdx

/-- Entry (p, q) of the sum over axis 2 is the sum over k of entry (p, q, k). -/
theorem laneSum_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src ?_
  funext ax
  match ax with
  | ⟨0, _⟩ => rfl
  | ⟨1, _⟩ => rfl
  | ⟨2, _⟩ => rfl

end Cert.Lib.LaneSum3
-- ==== Proof.Payload.lean ====
/-
  What the kernel body adds to the running output, read at one row.

  The body's one arithmetic payload takes the whole activation block `x` [1024, 256], a block `tw` of 64 gathered
  true-label rows, a block `sw` of 2048 gathered sampled rows and the running output `acc` [1024, 1]. At row `b` it
  leaves `acc b + ∑ i < 64, (log (∑ j < 32, exp (x_b · sw_(32 i + j))) - x_b · tw_i)`: the two products are
  contractions against the transposed blocks, so entry (b, r) of a score matrix is the inner product of row `b` of
  `x` with row `r` of the block; the reshape [1024, 2048] → [1024, 64, 32] puts score (b, 32 i + j) at (b, i, j); the
  narrowing of the operands to bf16 is the identity on the extended reals.
-/
import proofs.«126265_j52596169507059_1_alg».proof.Proof.Gen.KernelIdeal.Skeleton
import proofs.«126265_j52596169507059_1_alg».proof.Proof.Loss
import proofs.«126265_j52596169507059_1_alg».proof.Proof.LibPlainDot
import proofs.«126265_j52596169507059_1_alg».proof.Proof.LibKeepdims
import proofs.«126265_j52596169507059_1_alg».proof.Proof.LibLaneSum3
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Loss

/-- Entry (b, r) of a product into zero of `x` with the TRANSPOSE of a block `w` of `N` rows is the inner product of
    row `b` of `x` with row `r` of `w`. -/
theorem scores_apply {N : Nat} {φ₁ φ₂ : FTy} (x : FVec Ideal ⟨2, ![1024, 256]⟩ φ₁) (w : FVec Ideal ⟨2, ![N, 256]⟩ φ₂)
    (h : (⟨2, ![N, 256]⟩ : Shape).Transposes [1, 0] ⟨2, ![256, N]⟩) (b : Fin 1024) (r : Fin N) :
    FloatOps.matmul (DotDims.plain 1024 256 N) none x (transpose ⟨2, ![256, N]⟩ [1, 0] w h)
        (constant ⟨2, ![1024, N]⟩ .f32 0x00000000#32) (ix2 b r)
      = ∑ k : Fin 256, x (ix2 b k) * w (ix2 r k) := by
  rw [Cert.Lib.PlainDot.matmul_zero_apply]
  refine Finset.sum_congr rfl fun k _ => congrArg (x (ix2 b k) * ·) ?_
  exact transpose_apply [1, 0] w h (ix2 k r) (ix2 r k) (fun a => match a with
    | ⟨0, _⟩ => rfl
    | ⟨1, _⟩ => rfl)

/-- The zero block the first grid point stores is the additive identity at every entry. -/
theorem pay1_apply (y : S1024x1.Idx) : k0_pay1 (F := Ideal) y = 0 := by
  show Ideal.ofBits .f32 0x00000000#32 = 0
  exact Ideal.ofBits_zero_f32

/-- The body's contribution at row `b`: the previous contents plus the sum, over the block's 64 label positions, of
    the log-sum-exp of that position's 32 sampled scores less its true score. -/
theorem pay2_apply (x : Vec Ideal S1024x256 .f32) (tw : Vec Ideal S64x256 .f32) (sw : Vec Ideal S2048x256 .f32)
    (acc : Vec Ideal S1024x1 .f32) (b : Fin 1024) :
    k0_pay2 x tw sw acc (ix2 b (0 : Fin 1))
      = acc (ix2 b (0 : Fin 1)) + ∑ i : Fin 64, logit (fun k => x (ix2 b k)) (fun k => tw (ix2 i k)) (fun j k => sw (ix2 (brow i j) k)) := by
  simp only [k0_pay2, shapeCast_self]
  rw [addf_apply, Cert.Lib.Keepdims.shapeCast_a_a1_apply]
  refine congrArg (acc (ix2 b (0 : Fin 1)) + ·) ?_
  refine (Cert.Lib.Keepdims.rowSum_apply _ _ reduces_S1024x64_S1024 _ _ b).trans ?_
  refine Finset.sum_congr rfl fun i _ => ?_
  rw [subf_apply]
  unfold logit
  refine congrArg₂ (· - ·) (congrArg Ideal.log ?_) ?_
  · refine (Cert.Lib.LaneSum3.laneSum_apply _ _ reduces_S1024x64x32_S1024x64 _ _ b i).trans ?_
    refine Finset.sum_congr rfl fun j _ => congrArg Ideal.exp ?_
    refine (shapeCast_apply _ shapeCasts_S1024x2048_S1024x64x32 (ix3 b i j) (ix2 b (brow i j)) (by
      rw [Shape.rowMajor_val_two, Shape.rowMajor_val_three]
      have hb := b.isLt; have hi := i.isLt; have hj := j.isLt
      show b.val * 2048 + (32 * i.val + j.val) = (b.val * 64 + i.val) * 32 + j.val
      omega)).trans ?_
    exact scores_apply (truncf .bf16 x bitsLt_bf16_f32) (truncf .bf16 sw bitsLt_bf16_f32) _ b (brow i j)
  · exact scores_apply (truncf .bf16 x bitsLt_bf16_f32) (truncf .bf16 tw bitsLt_bf16_f32) _ b i

end Cert.KernelIdeal.Payload

end
-- ==== Proof.Blocks.lean ====
/-
  The input blocks the kernel body sees at grid point `t`, read at coordinates.

  The activations' window never moves: its one block is the whole [1024, 256] array. Block `t` of the gathered
  true-label rows is rows `64 t … 64 t + 63`, and block `t` of the gathered sampled rows is rows
  `2048 t … 2048 t + 2047`: a block's coordinate is its index times the block extent plus the coordinate inside.
-/
import proofs.«126265_j52596169507059_1_alg».proof.Proof.Gen.KernelIdeal.Frame
import proofs.«126265_j52596169507059_1_alg».proof.Proof.Loss
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Loss

variable {F : FTy → Type} [FloatOps F]
variable (m : (ℓ : Loc nD τ sig) → Buf (Elt F) ℓ)

/-- A grid point as one of the 16 block numbers. -/
def blockNo (t : Fin cfg0.N) : Fin 16 := ⟨t.val, lt_of_lt_of_eq t.isLt N_0⟩

/-- The three arrays as the region finds them, at their literal types. -/
abbrev xArr (c : Dev nD) : Vec F S1024x256 .f32 := V m c main_arg0
abbrev twArr (c : Dev nD) : Vec F S1024x256 .f32 := V m c main_v6
abbrev swArr (c : Dev nD) : Vec F S32768x256 .f32 := V m c main_v14

/-- The three input blocks at point `t`, at their literal types. -/
abbrev xBlk (c : Dev nD) (t : Fin cfg0.N) : Vec F S1024x256 .f32 := iblk m c 0 t
abbrev twBlk (c : Dev nD) (t : Fin cfg0.N) : Vec F S64x256 .f32 := iblk m c 1 t
abbrev swBlk (c : Dev nD) (t : Fin cfg0.N) : Vec F S2048x256 .f32 := iblk m c 2 t

/-- The printed index maps over the grid: the activations' block index is (0, 0), the two weight blocks' is (t, 0). -/
theorem index_x : ∀ t : Fin cfg0.N, win0_0.index t 0 = 0 ∧ win0_0.index t 1 = 0 :=
  (by decide +kernel : ∀ t : Fin grid0.N, win0_0.index t 0 = 0 ∧ win0_0.index t 1 = 0)
theorem index_tw : ∀ t : Fin cfg0.N, win0_1.index t 0 = t.val ∧ win0_1.index t 1 = 0 :=
  (by decide +kernel : ∀ t : Fin grid0.N, win0_1.index t 0 = t.val ∧ win0_1.index t 1 = 0)
theorem index_sw : ∀ t : Fin cfg0.N, win0_2.index t 0 = t.val ∧ win0_2.index t 1 = 0 :=
  (by decide +kernel : ∀ t : Fin grid0.N, win0_2.index t 0 = t.val ∧ win0_2.index t 1 = 0)

/-- The activations' block is the whole array. -/
theorem xBlk_apply (c : Dev nD) (t : Fin cfg0.N) (b : Fin 1024) (k : Fin 256) :
    xBlk m c t (ix2 b k) = xArr m c (ix2 b k) := by
  have hi := index_x t
  show iblk m c 0 t (ix2 b k) = V m c main_arg0 (ix2 b k)
  unfold iblk
  rw [View.read_apply]
  show V m c main_arg0 _ = V m c main_arg0 _
  refine congrArg (V m c main_arg0) (funext fun a => Fin.ext ?_)
  match a with
  | ⟨0, _⟩ => show win0_0.index t 0 * 1024 + 1 * b.val = b.val; rw [hi.1]; omega
  | ⟨1, _⟩ => show win0_0.index t 1 * 256 + 1 * k.val = k.val; rw [hi.2]; omega

/-- Row `i` of true-label block `t` is row `64 t + i` of the gathered true-label rows. -/
theorem twBlk_apply (c : Dev nD) (t : Fin cfg0.N) (i : Fin 64) (k : Fin 256) :
    twBlk m c t (ix2 i k) = twArr m c (ix2 (lpos (blockNo t) i) k) := by
  have hi := index_tw t
  show iblk m c 1 t (ix2 i k) = V m c main_v6 (ix2 (lpos (blockNo t) i) k)
  unfold iblk
  rw [View.read_apply]
  show V m c main_v6 _ = V m c main_v6 _
  refine congrArg (V m c main_v6) (funext fun a => Fin.ext ?_)
  match a with
  | ⟨0, _⟩ => show win0_1.index t 0 * 64 + 1 * i.val = 64 * t.val + i.val; rw [hi.1]; omega
  | ⟨1, _⟩ => show win0_1.index t 1 * 256 + 1 * k.val = k.val; rw [hi.2]; omega

/-- Row `32 i + j` of sampled block `t` is sampled row `32 (64 t + i) + j`: the `j`-th sample of label position `64 t + i`. -/
theorem swBlk_apply (c : Dev nD) (t : Fin cfg0.N) (i : Fin 64) (j : Fin 32) (k : Fin 256) :
    swBlk m c t (ix2 (brow i j) k) = swArr m c (ix2 (srow (lpos (blockNo t) i) j) k) := by
  have hi := index_sw t
  show iblk m c 2 t (ix2 (brow i j) k) = V m c main_v14 (ix2 (srow (lpos (blockNo t) i) j) k)
  unfold iblk
  rw [View.read_apply]
  show V m c main_v14 _ = V m c main_v14 _
  refine congrArg (V m c main_v14) (funext fun a => Fin.ext ?_)
  match a with
  | ⟨0, _⟩ =>
    show win0_2.index t 0 * 2048 + 1 * (32 * i.val + j.val) = 32 * (64 * t.val + i.val) + j.val
    rw [hi.1]; omega
  | ⟨1, _⟩ => show win0_2.index t 1 * 256 + 1 * k.val = k.val; rw [hi.2]; omega

end Cert.KernelIdeal.Blocks

end
-- ==== Proof.Accum.lean ====
/-
  The running output across the grid, on the extended reals.

  Grid point `t` adds to row `b` of the output block the part of the loss that its 64 label positions contribute:
  the body's payload over the point's blocks is `previous + part b t` (the blocks read back into the gathered arrays).
  The first point starts from the zero block, so after point `n` row `b` holds `∑ s ≤ n, part b s`, and after the last
  of the 16 points it holds the whole loss of row `b` (the sum regrouped block by block).
-/
import proofs.«126265_j52596169507059_1_alg».proof.Proof.Pieces
import proofs.«126265_j52596169507059_1_alg».proof.Proof.Payload
import proofs.«126265_j52596169507059_1_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.Loss Cert.KernelIdeal.Blocks

variable (m : (ℓ : Loc nD τ sig) → Buf (Elt Ideal) ℓ)

/-- What point `t` makes of previous contents `prev`, at row `b`: `prev b` plus block `t`'s part of the loss. -/
theorem contribution (c : Dev nD) (t : Fin cfg0.N) (prev : Vec Ideal S1024x1 .f32) (b : Fin 1024) :
    k0_pay2 (xBlk m c t) (twBlk m c t) (swBlk m c t) prev (ix2 b (0 : Fin 1))
      = prev (ix2 b (0 : Fin 1)) + part (xArr m c) (twArr m c) (swArr m c) b (blockNo t) := by
  rw [Payload.pay2_apply]
  refine congrArg (prev (ix2 b (0 : Fin 1)) + ·) ?_
  unfold part term
  refine Finset.sum_congr rfl fun i _ => ?_
  simp only [xBlk_apply, twBlk_apply, swBlk_apply]

/-- Block number `s` of a prefix of the grid's points. -/
def prefixNo {n : ℕ} (hn : n < cfg0.N) (s : Fin (n + 1)) : Fin 16 :=
  ⟨s.val, by have := s.isLt; have hN : cfg0.N = 16 := N_0; omega⟩

/-- After point `n`, row `b` of the output block holds the sum of the parts of blocks `0 … n`. -/
theorem running (c : Dev nD) : ∀ (n : ℕ) (hn : n < cfg0.N) (b : Fin 1024),
    outsAt0 m c n hn (ix2 b (0 : Fin 1)) = ∑ s : Fin (n + 1), part (xArr m c) (twArr m c) (swArr m c) b (prefixNo hn s)
  | 0, hn, b => by
    refine (congrFun ((outsAt0_A m c ⟨0, hn⟩ rfl).trans (Pieces.first_point (F := Ideal) c _ _ _ _ _ _ _ _ _ _ _ _ _)) (ix2 b (0 : Fin 1))).trans ?_
    refine (contribution m c ⟨0, hn⟩ (k0_pay1 (F := Ideal)) b).trans ?_
    rw [Payload.pay1_apply, zero_add, Fin.sum_univ_one]
    rfl
  | n + 1, hn, b => by
    have hN : cfg0.N = 16 := N_0
    have hB : ¬(⟨n + 1, hn⟩ : Fin cfg0.N).val % 16 = 0 := by dsimp only; omega
    refine (congrFun ((outsAt0_B m c ⟨n + 1, hn⟩ hB).trans (Pieces.later_point (F := Ideal) c _ _ _ _ _ _ _ _ _ _ _ _ _ _)) (ix2 b (0 : Fin 1))).trans ?_
    refine (contribution m c ⟨n + 1, hn⟩ _ b).trans ?_
    rw [Fin.sum_univ_castSucc]
    refine congrArg₂ (· + ·) ((running c n (Nat.lt_of_succ_lt hn) b).trans ?_) rfl
    rfl

/-- The last of the 16 grid points. -/
theorem last_lt : 15 < cfg0.N := by rw [show cfg0.N = 16 from N_0]; decide

/-- After the last point, row `b` of the output block holds the loss of row `b`. -/
theorem total (c : Dev nD) (b : Fin 1024) :
    outsAt0 m c 15 last_lt (ix2 b (0 : Fin 1)) = loss (xArr m c) (twArr m c) (swArr m c) b := by
  rw [running m c 15 last_lt b, loss_blocks]
  rfl

end Cert.KernelIdeal.Accum

end
-- ==== Proof.HostPrefix.lean ====
/-
  What the region finds in its three arrays, in terms of the arguments.

  Before the region the kernel's program normalises the two integer index arrays (a negative index has the table's
  100000 rows added) and gathers rows of the weight table; the reference's program opens with the very same
  operations. So the gathered true-label rows and the gathered sampled rows the region reads are the reference's own
  two gather stages of the same arguments, and the activations are the argument itself. Which table row an index word
  selects never has to be opened: both programs apply one and the same function to the same words.
-/
import proofs.«126265_j52596169507059_1_alg».proof.Proof.Gen.KernelIdeal.Frame
import proofs.«126265_j52596169507059_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The gathered true-label rows are the reference's gather stage of the label words and the weight table. -/
theorem trueRows_eq (c : Dev nD) :
    (V m c main_v6 : Vec F S1024x256 .f32)
      = Cert.ReferenceIdeal.Read.val_main_v6 (F := F) (m ((c : Thread nD τ).loc main_arg1)) (m ((c : Thread nD τ).loc main_arg3)) := by
  show StableHlo.after hostOps0 (fun b => m (c, b)) (Proc.devRef .tc main_v6) = _
  after_results
  rfl

/-- The gathered sampled rows are the reference's gather stage of the sample words and the weight table. -/
theorem sampRows_eq (c : Dev nD) :
    (V m c main_v14 : Vec F S32768x256 .f32)
      = Cert.ReferenceIdeal.Read.val_main_v16 (F := F) (m ((c : Thread nD τ).loc main_arg2)) (m ((c : Thread nD τ).loc main_arg3)) := by
  show StableHlo.after hostOps0 (fun b => m (c, b)) (Proc.devRef .tc main_v14) = _
  after_results
  rfl

end Cert.KernelIdeal.HostPrefix

end
-- ==== Proof.Result.lean ====
/-
  The kernel program's result as a function of its arguments, on the extended reals.

  The output window's block index never moves and its block is the whole [1024, 1] array; it is written back once,
  after the last of the 16 grid points, so the array ends at what the last point left: at row `b` the loss of row `b`
  over the gathered arrays. The one host operation after the region reshapes [1024, 1] to [1024]: entry `b` of the
  result reads entry `(b, 0)` of the array (the same row-major position).
-/
import proofs.«126265_j52596169507059_1_alg».proof.Proof.Accum
import proofs.«126265_j52596169507059_1_alg».proof.Proof.HostPrefix
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Loss Cert.KernelIdeal.Blocks

variable (m : (ℓ : Loc nD τ sig) → Buf (Elt Ideal) ℓ) (ρ : Dev nD → PrngReg)

/-- What the last grid point leaves in the output block, as contents of the output array. -/
abbrev lastOut (c : Dev nD) : Buf (Elt Ideal) ((c : Thread nD τ).loc main_v15) := outsAt0 m c 15 Accum.last_lt

/-- The only point that writes the output back is the last one. -/
theorem flush_is_last (t : Fin cfg0.N) (hf : (cfg0.win 3).flush t = true) : t = t0_15 := by
  have hN : cfg0.N = 16 := N_0
  have h := (flush0_3 t).mp hf
  have hlt := t.isLt
  exact Fin.ext (by show t.val = 15; omega)

/-- The output's block index is (0, 0) at the last point. -/
theorem origin_last : (fun a => win0_3.index t0_15 a * main_v15.ty.shape.size a) = fun _ => 0 :=
  funext fun a => by fin_cases a <;> decide

/-- The one write-back writes what the last point left: block (0, 0) of extent [1024, 1] is the whole array. -/
theorem written_back (c : Dev nD) (t : Fin cfg0.N) (hf : (cfg0.win 3).flush t = true) :
    (dats m 0 c).flushed 3 t = ((cfg0.win 3).blk t).view.read (Elt Ideal) (lastOut m c) := by
  obtain rfl := flush_is_last t hf
  show (cfg0.win 3).cut (grid0.coords t0_15) ((dats m 0 c).after 3 t0_15) = _
  rw [after0_3]
  exact (Memref.read_access_unit_zero (Elt Ideal) main_v15 origin_last
    (fun a => by rw [congrFun origin_last a]; simp) (lastOut m c)).symm

/-- So the output array ends at what the last point left. -/
theorem array_final (c : Dev nD) : (dats m 0 c).arrAt 3 cfg0.N = lastOut m c :=
  (dats m 0 c).arrAt_eq_of_cover 3 (lastOut m c) (written_back m c) fun i =>
    ⟨t0_15, (flush0_3 t0_15).mpr rfl, by
      show i ∈ ((View.whole main_v15).slice (win0_3.rect t0_15)).set
      rw [View.set_slice_whole, Rect.mem_set_unit]
      intro a
      match a with
      | ⟨0, _⟩ =>
        have h0 : (i 0 : Nat) < 1024 := (i 0).isLt
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 1024 from by decide +kernel]
        omega
      | ⟨1, _⟩ =>
        have h1 : (i 1 : Nat) < 1 := (i 1).isLt
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 1 from by decide +kernel]
        omega⟩

/-- The program's result buffer after the run: the reshape of what the last point left. -/
theorem tail_eq (c : Dev nD) :
    Pipeline.afterTail₀ cfgs (dats m) 0 (V0 m) [hostOps1] c main_v16
      = shapeCast S1024 (lastOut m c) shapeCasts_S1024x1_S1024 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.tc.devRef main_v15)
      = lastOut m c :=
    (Pipeline.withArrays_arr spec0 launch0.win.arr_inj c _ _ 3).trans (array_final m c)
  exact congrArg (fun A : Buf (Elt Ideal) ((c : Thread nD τ).loc main_v15) => shapeCast S1024 A shapeCasts_S1024x1_S1024) e

/-- Entry `b` of the program's result is the loss of row `b`, over the activations argument and the reference's two
    gather stages of the other arguments. -/
theorem result_apply (c : Dev nD) (b : Fin 1024) :
    shapeCast S1024 (lastOut m c) shapeCasts_S1024x1_S1024 (ix1 b)
      = loss (m ((c : Thread nD τ).loc main_arg0))
          (Cert.ReferenceIdeal.Read.val_main_v6 (F := Ideal) (m ((c : Thread nD τ).loc main_arg1)) (m ((c : Thread nD τ).loc main_arg3)))
          (Cert.ReferenceIdeal.Read.val_main_v16 (F := Ideal) (m ((c : Thread nD τ).loc main_arg2)) (m ((c : Thread nD τ).loc main_arg3))) b := by
  refine (shapeCast_apply (lastOut m c) shapeCasts_S1024x1_S1024 (ix1 b) (ix2 b (0 : Fin 1)) (by
    show (S1024x1.rowMajor (ix2 b (0 : Fin 1))).val = (S1024.rowMajor (ix1 b)).val
    rw [Shape.rowMajor_val_two, Shape.rowMajor_val_one]
    show b.val * 1 + 0 = b.val
    omega)).trans ?_
  refine (Accum.total m c b).trans ?_
  show loss (V m c main_arg0) (V m c main_v6) (V m c main_v14) b = _
  rw [V_main_arg0, HostPrefix.trueRows_eq, HostPrefix.sampRows_eq]

/-- The run, read: the result buffer at the reshape of what the last point left, the four arguments unchanged. -/
theorem run : θ_run defs (onTc (τ := τ) (main (F := Ideal))) ⟨m, fun _ => 0, ρ⟩ fun r => ∀ c : Dev nD,
      r.2.mem ((c.tc : Thread nD τ).loc main_v16) = shapeCast S1024 (lastOut m c) shapeCasts_S1024x1_S1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefLoss.lean ====
/-
  The reference computes the loss.

  Read one operation at a time, entry `b` of the reference's result is the zero word plus the sum over the 1024 label
  positions `I` of `log (0 + ∑ j, exp (x_b · sw_(32 I + j))) - x_b · tw_I`, where `tw` and `sw` are the two gathered
  weight arrays. The reshape of the [1024, 32768] score matrix to [1024, 1024, 32] puts score `(b, 32 I + j)` at
  `(b, I, j)` (row-major position `(b · 1024 + I) · 32 + j` on both sides), and the two transposes swap the
  coordinates of the gathered rows. The zero words are the additive identity of the extended reals.
-/
import proofs.«126265_j52596169507059_1_alg».proof.Proof.Gen.ReferenceIdeal.Read
import proofs.«126265_j52596169507059_1_alg».proof.Proof.Loss
import Idealize.ShloMosaic.PureOps.Ideal.Laws

noncomputable section

namespace Cert.RefLoss

open Cert.ReferenceIdeal Cert.ReferenceIdeal.Read Idealize.ShloMosaic Idealize.ShloMosaic.ValueIdx Cert.Loss

/-- The true-score product reads activations at `(b, k)`. -/
theorem x_of_true (b I : Fin 1024) (k : Fin 256) : lidx_main_v8 (idx_main_v24 (ix1 b) I) k = ix2 b k :=
  funext fun a => Fin.ext (by match a with | ⟨0, _⟩ => rfl | ⟨1, _⟩ => rfl)

/-- The true-score product reads, through the transpose, the gathered true-label row `I` at column `k`. -/
theorem tw_of_true (b I : Fin 1024) (k : Fin 256) :
    idx_main_v7 (ridx_main_v8 (idx_main_v24 (ix1 b) I) k) = ix2 I k :=
  funext fun a => Fin.ext (by match a with | ⟨0, _⟩ => rfl | ⟨1, _⟩ => rfl)

/-- Score `(b, I, j)` of the reshaped matrix reads activations at `(b, k)`. -/
theorem x_of_samp (b I : Fin 1024) (j : Fin 32) (k : Fin 256) :
    lidx_main_v18 (idx_main_v19 (idx_main_v21 (idx_main_v24 (ix1 b) I) j)) k = ix2 b k :=
  funext fun a => Fin.ext (by
    have hb := b.isLt; have hI := I.isLt; have hj := j.isLt
    match a with
    | ⟨0, _⟩ => show ((b.val * 1024 + I.val) * 32 + j.val) / 32768 = b.val; omega
    | ⟨1, _⟩ => rfl)

/-- Score `(b, I, j)` of the reshaped matrix reads, through the transpose, the gathered sampled row `32 I + j`. -/
theorem sw_of_samp (b I : Fin 1024) (j : Fin 32) (k : Fin 256) :
    idx_main_v17 (ridx_main_v18 (idx_main_v19 (idx_main_v21 (idx_main_v24 (ix1 b) I) j)) k) = ix2 (srow I j) k :=
  funext fun a => Fin.ext (by
    have hb := b.isLt; have hI := I.isLt; have hj := j.isLt
    match a with
    | ⟨0, _⟩ => show ((b.val * 1024 + I.val) * 32 + j.val) % 32768 = 32 * I.val + j.val; omega
    | ⟨1, _⟩ => rfl)

/-- Entry `b` of the reference's result is the loss of row `b` over the two gathered weight arrays. -/
theorem result_apply (x0 : (⟨S1024x256, .f32⟩ : BufTy).Contents (Elt Ideal)) (x1 : (⟨S1024, .i32⟩ : BufTy).Contents (Elt Ideal))
    (x2 : (⟨S1024x32, .i32⟩ : BufTy).Contents (Elt Ideal)) (x3 : (⟨S100000x256, .f32⟩ : BufTy).Contents (Elt Ideal)) (b : Fin 1024) :
    val_main_v24 (F := Ideal) x0 x1 x2 x3 (ix1 b)
      = loss x0 (val_main_v6 (F := Ideal) x1 x3) (val_main_v16 (F := Ideal) x2 x3) b := by
  rw [val_main_v24_apply]
  simp only [val_main_v23_apply, val_main_v22_apply, val_main_v21_apply, val_main_v20_apply, val_main_v19_apply,
    val_main_v18_apply, val_main_v17_apply, val_main_v8_apply, val_main_v7_apply, val_main_cst_apply,
    val_main_cst_3_apply, x_of_true, tw_of_true, x_of_samp, sw_of_samp]
  have hz : (FloatOps.ofBits (F := Ideal) FTy.f32 0#32 : EReal) = 0 := Ideal.ofBits_zero_f32
  simp only [hz, zero_add, Ideal.subf_def, Ideal.hostUnary_log_def, Ideal.hostUnary_exp_def]
  rfl

end Cert.RefLoss

end
-- ==== Proof.lean ====
/-
  The sampled-softmax loss kernel against its reference, over the extended reals.

  Both programs first gather, from the [100000, 256] weight table, one row per label (`tw`, [1024, 256]) and one row
  per sampled id (`sw`, [32768, 256]), with the same index normalisation. For batch row `b` and label position `I` put

      term b I = log (∑ j < 32, exp (x_b · sw_(32 I + j))) - x_b · tw_I.

  The reference returns `loss b = ∑ I < 1024, term b I` (its two zero initial values are the additive identity). The
  kernel walks 16 grid points; point `t` sees rows `64 t …` of `tw` and rows `2048 t …` of `sw`, and adds
  `part b t = ∑ i < 64, term b (64 t + i)` to an output block it zeroes at the first point and writes back after the
  last, so it returns `∑ t < 16, part b t`. The two are equal by regrouping a finite sum, which holds in any commutative
  monoid: no entry has to be finite, and the precondition is never opened. The narrowing of the products' operands to
  bf16 is the identity at the ideal instance, and the kernel's `exp` / `log` and the host's are one function there.

  The three frames are the generated ones (the reference's is its generated run with the result dropped), and the
  ideal pass rewrote nothing, so the idealization conjunct is `True`.
-/
import proofs.«126265_j52596169507059_1_alg».proof.Defs
import proofs.«126265_j52596169507059_1_alg».proof.Proof.Gen.Kernel
import proofs.«126265_j52596169507059_1_alg».proof.Proof.Gen.Kernel.Skeleton
import proofs.«126265_j52596169507059_1_alg».proof.Proof.Gen.Kernel.Launch
import proofs.«126265_j52596169507059_1_alg».proof.Proof.Gen.Kernel.Points
import proofs.«126265_j52596169507059_1_alg».proof.Proof.Gen.Kernel.Frame
import proofs.«126265_j52596169507059_1_alg».proof.Proof.Gen.KernelIdeal
import proofs.«126265_j52596169507059_1_alg».proof.Proof.Gen.KernelIdeal.Skeleton
import proofs.«126265_j52596169507059_1_alg».proof.Proof.Gen.KernelIdeal.Launch
import proofs.«126265_j52596169507059_1_alg».proof.Proof.Gen.KernelIdeal.Points
import proofs.«126265_j52596169507059_1_alg».proof.Proof.Gen.KernelIdeal.Frame
import proofs.«126265_j52596169507059_1_alg».proof.Proof.Gen.ReferenceIdeal
import proofs.«126265_j52596169507059_1_alg».proof.Proof.Gen.Pre_finite_inputs
import proofs.«126265_j52596169507059_1_alg».proof.Proof.Gen.ReferenceIdeal.Run
import proofs.«126265_j52596169507059_1_alg».proof.Proof.Gen.ReferenceIdeal.Read
import proofs.«126265_j52596169507059_1_alg».proof.Proof.Result
import proofs.«126265_j52596169507059_1_alg».proof.Proof.RefLoss
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end with, at every row `b`, the loss of row `b`
    over the activations and the two gathered weight arrays: the kernel by accumulating the 16 blocks' parts, the
    reference by one sum over the 1024 label positions. -/
theorem algebraic : Cert.algebraic_KernelIdeal_ReferenceIdeal := by
  intro m ρ m' ρ' _ hagree
  refine ⟨fun c => shapeCast Cert.KernelIdeal.S1024 (Cert.KernelIdeal.Result.lastOut m c) Cert.KernelIdeal.Facts₀.shapeCasts_S1024x1_S1024,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  funext y
  obtain ⟨b, rfl⟩ : ∃ b : Fin 1024, y = ix1 b := ⟨y 0, eq_ix1 y⟩
  exact (Cert.RefLoss.result_apply _ _ _ _ b).trans (Cert.KernelIdeal.Result.result_apply m c b).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
